-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S64x4096 : Shape := ⟨2, ![64, 4096]⟩
abbrev S64 : Shape := ⟨1, ![64]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S64x4096 : S_.BroadcastsInDim S64x4096 (![] : Fin 0 → Fin S64x4096.rank)
  reducesTo_S64x4096_S_d0_1 : S64x4096.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S8192x4096 .f32) (main_arg1 : FVec F S64x4096 .f32) (main_arg2 : FVec F S64 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S64x4096 .f32 := Host.absf main_arg1
  let main_cst_0 : FVec F S_ .f32 := constant S_ .f32 0x7F800000#32
  let main_v5 : FVec F S64x4096 .f32 := broadcastInDim S64x4096 ![] bcast_S_S64x4096 main_cst_0
  let main_v6 : IVec S64x4096 1 := cmpf .olt main_v4 main_v5
  let main_c_1 : IVec S_ 1 := constantI S_ 1 1#1
  let main_v7 : IVec S_ 1 := (fun x v => Host.reduce IntOp.andi x v reducesTo_S64x4096_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S8192x4096 : Shape := ⟨2, ![8192, 4096]⟩
abbrev S64x4096 : Shape := ⟨2, ![64, 4096]⟩
abbrev S64 : Shape := ⟨1, ![64]⟩
abbrev S1x64 : Shape := ⟨2, ![1, 64]⟩
abbrev S64x8192 : Shape := ⟨2, ![64, 8192]⟩
abbrev S512x4096 : Shape := ⟨2, ![512, 4096]⟩
abbrev S64x1024 : Shape := ⟨2, ![64, 1024]⟩
abbrev S64x1 : Shape := ⟨2, ![64, 1]⟩
abbrev S64x512 : Shape := ⟨2, ![64, 512]⟩
abbrev S8192x64 : Shape := ⟨2, ![8192, 64]⟩

abbrev nBuf : Space → Nat
  | .hbm => 6
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S64x4096, .f32⟩
  | .hbm, ⟨2, _⟩ => ⟨S64, .f32⟩
  | .hbm, ⟨3, _⟩ => ⟨S1x64, .f32⟩
  | .hbm, ⟨4, _⟩ => ⟨S64x8192, .f32⟩
  | .hbm, ⟨5, _⟩ => ⟨S8192x64, .f32⟩
  | .local _ .vmem, ⟨0, _⟩ => ⟨S512x4096, .f32⟩
  | .local _ .vmem, ⟨1, _⟩ => ⟨S512x4096, .f32⟩
  | .local _ .vmem, ⟨2, _⟩ => ⟨S512x4096, .f32⟩
  | .local _ .vmem, ⟨3, _⟩ => ⟨S512x4096, .f32⟩
  | .local _ .vmem, ⟨4, _⟩ => ⟨S64x4096, .f32⟩
  | .local _ .vmem, ⟨5, _⟩ => ⟨S1x64, .f32⟩
  | .local _ .vmem, ⟨6, _⟩ => ⟨S64x1024, .f32⟩
  | .local _ .vmem, ⟨7, _⟩ => ⟨S64x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  transposes_S1x64_p1_0_S64x1 : S1x64.Transposes [1, 0] S64x1
  inb_S64x4096_S64x4096_0_0 : ∀ a, (![0, 0] : Fin 2 → Nat) a + S64x4096.size a ≤ S64x4096.size a
  h_S64x4096 : 0 < S64x4096.numel
  inb_S512x4096_S512x4096_0_0 : ∀ a, (![0, 0] : Fin 2 → Nat) a + S512x4096.size a ≤ S512x4096.size a
  h_S512x4096 : 0 < S512x4096.numel
  broadcasts_S64x1_S64x512 : S64x1.Broadcasts S64x512
  inb_S64x1024_S64x512_0_0 : ∀ a, (![0, 0] : Fin 2 → Nat) a + S64x512.size a ≤ S64x1024.size a
  h_S64x512 : 0 < S64x512.numel
  inb_S64x1024_S64x512_0_512 : ∀ a, (![0, 512] : Fin 2 → Nat) a + S64x512.size a ≤ S64x1024.size a
  transposes_S64x8192_S8192x64_1_0 : S64x8192.Transposes [1, 0] S8192x64
  dot_S64x4096_S512x4096_S64x512_1_1_0_0_n_n_wf : DotDims.WF S64x4096 S512x4096 S64x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S8192x4096.size a
  hwx0_1 : ∀ i : grid0.Coords, EltTy.bits .f32 = 32 ∨ (Rect.block (s := S8192x4096) S512x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x4096.size a ≤ S64x4096.size a
  hwx0_2 : ∀ i : grid0.Coords, EltTy.bits .f32 = 32 ∨ (Rect.block (s := S64x4096) S64x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x1024.size a ≤ S64x8192.size a
  hwx0_4 : ∀ i : grid0.Coords, EltTy.bits .f32 = 32 ∨ (Rect.block (s := S64x8192) S64x1024.size (cc0_transform_4 i) (hinb0_4 i)).WholeWords (EltTy.packing .f32)

variable [Facts₀]

def dot_S64x4096_S512x4096_S64x512_1_1_0_0_n_n : DotDims S64x4096 S512x4096 S64x512 where
  lhsContracting := [1]
  rhsContracting := [1]
  lhsNonContracting := [0]
  rhsNonContracting := [0]
  lhsBatch := []
  rhsBatch := []
  wf := dot_S64x4096_S512x4096_S64x512_1_1_0_0_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S64x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S64x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S64x4096 : Shape := ⟨2, ![64, 4096]⟩
abbrev S64 : Shape := ⟨1, ![64]⟩
abbrev S8192x64 : Shape := ⟨2, ![8192, 64]⟩
abbrev S_ : Shape := ⟨0, ![]⟩
abbrev S1x64 : Shape := ⟨2, ![1, 64]⟩

abbrev nBuf : Space → Nat
  | .hbm => 13
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S64x4096, .f32⟩
  | .hbm, ⟨2, _⟩ => ⟨S64, .f32⟩
  | .hbm, ⟨3, _⟩ => ⟨S8192x64, .f32⟩
  | .hbm, ⟨4, _⟩ => ⟨S_, .f32⟩
  | .hbm, ⟨5, _⟩ => ⟨S8192x64, .f32⟩
  | .hbm, ⟨6, _⟩ => ⟨S8192x64, .f32⟩
  | .hbm, ⟨7, _⟩ => ⟨S1x64, .f32⟩
  | .hbm, ⟨8, _⟩ => ⟨S8192x64, .f32⟩
  | .hbm, ⟨9, _⟩ => ⟨S8192x64, .f32⟩
  | .hbm, ⟨10, _⟩ => ⟨S_, .f32⟩
  | .hbm, ⟨11, _⟩ => ⟨S8192x64, .f32⟩
  | .hbm, ⟨12, _⟩ => ⟨S8192x64, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_cst : Ref sig .tc := ⟨.hbm, 10, rfl⟩
abbrev main_call0_v0 : Ref sig .tc := ⟨.hbm, 11, rfl⟩
abbrev main_v6 : Ref sig .tc := ⟨.hbm, 12, rfl⟩

abbrev nD : Nat := 1
abbrev τ : Topo := Topo.v7x

variable {F : FTy → Type} [FloatOps F]

class Facts₀ : Prop where
  bcast_S_S8192x64 : S_.BroadcastsInDim S8192x64 (![] : Fin 0 → Fin S8192x64.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  dot_S8192x4096_S64x4096_S8192x64_1_1_0_0_n_n_wf : DotDims.WF S8192x4096 S64x4096 S8192x64 [1] [1] [0] [0] [] []

variable [Facts₀]

def dot_S8192x4096_S64x4096_S8192x64_1_1_0_0_n_n : DotDims S8192x4096 S64x4096 S8192x64 where
  lhsContracting := [1]
  rhsContracting := [1]
  lhsNonContracting := [0]
  rhsNonContracting := [0]
  lhsBatch := []
  rhsBatch := []
  wf := dot_S8192x4096_S64x4096_S8192x64_1_1_0_0_n_n_wf

class Facts : Prop extends Facts₀ where

variable [Facts]
-- ==== Proof.KernelRegion.lean ====
/-
  One grid point of the kernel region, for any float family.

  The region has five windows. Windows 0 and 1 both read the token matrix x : [8192, 4096], at the
  row blocks 2t and 2t+1 of 512 rows; window 2 is the whole prototype matrix p : [64, 4096]; window 3
  is the gate as a row [1, 64]; window 4 is the output, column block t of width 1024 of a
  [64, 8192] array.  At point t the body stores, into the left half of the output block,
  max (p · xaᵀ · 2⁻⁶ − gate, 0) and, into the right half, the same expression of the second row
  block xb.  The two stores tile the block, so afterwards the block is the canonical reading of the
  two pieces; the inputs' staging buffers are left as found.

  Because x is handed to two windows, each of them holds one half of the share of its array.
-/
import proofs.«135009_g28312424415705_cont_9to1_2284_19_alg».proof.Proof.Gen.Kernel.Launch
import proofs.«135009_g28312424415705_cont_9to1_2284_19_alg».proof.Proof.Gen.Kernel.Skeleton
import proofs.«135009_g28312424415705_cont_9to1_2284_19_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of the core when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether or not the point fetches it:
    a point that does not fetch has the block index of the point before. One statement per input window. -/
theorem before_in0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The rectangles the body reads and writes -/

abbrev rG : Rect S1x64 := Rect.unit (s := S1x64) ![0, 0] S1x64.size inb_S1x64_S1x64_0_0
abbrev rP : Rect S64x4096 := Rect.unit (s := S64x4096) ![0, 0] S64x4096.size inb_S64x4096_S64x4096_0_0
abbrev rX : Rect S512x4096 := Rect.unit (s := S512x4096) ![0, 0] S512x4096.size inb_S512x4096_S512x4096_0_0
abbrev rLo : Rect S64x1024 := Rect.unit (s := S64x1024) ![0, 0] S64x512.size inb_S64x1024_S64x512_0_0
abbrev rHi : Rect S64x1024 := Rect.unit (s := S64x1024) ![0, 512] S64x512.size inb_S64x1024_S64x512_0_512

/-! ## What the body leaves in the output block -/

/-- The output block after the body: the right half is the expression of the second row block, the left half
    that of the first (the later store listed first). -/
def outBlk (xa xb : Vec F S512x4096 .f32) (p : Vec F S64x4096 .f32) (g : Vec F S1x64 .f32) : Vec F S64x1024 .f32 :=
  View.canon [⟨rHi, k0_pay3 (View.ld g rG) (View.ld p rP) (View.ld xb rX)⟩,
              ⟨rLo, k0_pay2 (View.ld g rG) (View.ld p rP) (View.ld xa rX)⟩]

/-- The two halves tile the block. -/
theorem cover_out (p1 p0 : Vec F S64x512 .f32) (y : S64x1024.Idx) :
    ∃ pc ∈ ([⟨rHi, p1⟩, ⟨rLo, p0⟩] : List (View.Piece (Elt F) S64x1024 .f32)), y ∈ pc.1.set :=
  View.cover_of_tiled [⟨rHi, p1⟩, ⟨rLo, p0⟩] S64x512.size (by rfl) y

/-! ## The body's triple -/

set_option maxHeartbeats 1000000 in
/-- The body on whole staging memrefs: the four inputs at known contents, the output at anything; it returns the
    inputs as they were and the output at `outBlk` of them. -/
theorem sound_kernel (c : Dev nD) (E : Set ℕ) (i : grid0.Coords)
    (arg1 : Memref sig .tc .vmem S512x4096 .f32) (harg1 : arg1.IsWhole) (arg2 : Memref sig .tc .vmem S512x4096 .f32) (harg2 : arg2.IsWhole)
    (arg3 : Memref sig .tc .vmem S64x4096 .f32) (harg3 : arg3.IsWhole) (arg4 : Memref sig .tc .vmem S1x64 .f32) (harg4 : arg4.IsWhole)
    (arg5 : Memref sig .tc .vmem S64x1024 .f32) (harg5 : arg5.IsWhole)
    (xa xb : Vec F S512x4096 .f32) (p : Vec F S64x4096 .f32) (g : Vec F S1x64 .f32) (K : PUnit → sProp 𝕄) :
    iprop(owns (c : Thread nD τ) arg1 fullShare xa ∗ owns (c : Thread nD τ) arg2 fullShare xb
        ∗ owns (c : Thread nD τ) arg3 fullShare p ∗ owns (c : Thread nD τ) arg4 fullShare g
        ∗ (∃ d, owns (c : Thread nD τ) arg5 fullShare d)
        ∗ (iprop(owns (c : Thread nD τ) arg1 fullShare xa ∗ owns (c : Thread nD τ) arg2 fullShare xb
            ∗ owns (c : Thread nD τ) arg3 fullShare p ∗ owns (c : Thread nD τ) arg4 fullShare g
            ∗ owns (c : Thread nD τ) arg5 fullShare (outBlk xa xb p g)) -∗ K ⟨⟩))
      ⊢ wp frame (wpE (defs₀ (F := F)) Variants.none c none) E (cc0__body i arg1 harg1 arg2 harg2 arg3 harg3 arg4 harg4 arg5 harg5) K := by
  simp only [cc0__body_eq_skeleton]; unfold cc0__body_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_out _ _)

/-! ## The region's proof data -/

/-- The arrays as the region finds them; after the body each input's buffer at its block and the output's at
    `outBlk` of the input blocks; the invariant is the scoped rest and the generator register, untouched; nothing
    owed; the token matrix's share halved between its two windows. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => outBlk (iblk V c 0 t) (iblk V c 1 t) (iblk V c 2 t) (iblk V c 3 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) :
    (dat V c).after 4 t = outBlk (iblk V c 0 t) (iblk V c 1 t) (iblk V c 2 t) (iblk V c 3 t) := by dsimp only [dat]

theorem before_0 (c : Dev nD) (t : Fin cfg0.N) (d) : (dat V c).before 0 t d = iblk V c 0 t :=
  before_in0_of V (dat V c) (A_eq V c 0) (after_0 V c) t d
theorem before_1 (c : Dev nD) (t : Fin cfg0.N) (d) : (dat V c).before 1 t d = iblk V c 1 t :=
  before_in1_of V (dat V c) (A_eq V c 1) (after_1 V c) t d
theorem before_2 (c : Dev nD) (t : Fin cfg0.N) (d) : (dat V c).before 2 t d = iblk V c 2 t :=
  before_in2_of V (dat V c) (A_eq V c 2) (after_2 V c) t d
theorem before_3 (c : Dev nD) (t : Fin cfg0.N) (d) : (dat V c).before 3 t d = iblk V c 3 t :=
  before_in3_of V (dat V c) (A_eq V c 3) (after_3 V c) t d

/-! ## The body obligation -/

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d)))

def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t))

/-- The body at any point: the inputs' memrefs hold their blocks, so the triple applies; the invariant and what the
    core owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dat (F := F) V c) (defs₀ (F := F)) Variants.none () Set.univ := fun t => by
  rw [bigSep_W0, bigSep_W0]
  exact sound_body V c t

end Cert.Kernel.Region

end
-- ==== Proof.KernelShares.lean ====
/-
  The region's arrays at its two ends.

  At entry the core holds every buffer of the program whole.  The token matrix is read by two windows, so
  its full share is split into a left and a right half, one for each; the prototype matrix, the gate row and
  the output array go to their windows whole.  At exit the two halves of the token matrix, which hold the
  same (unchanged) contents, are joined again, and the output array is found at what the write-backs left.
-/
import proofs.«135009_g28312424415705_cont_9to1_2284_19_alg».proof.Proof.KernelRegion

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A whole buffer held through its whole view is the buffer held. -/
theorem whole_pt (c : Dev nD) (b : Ref sig .tc) (q : PosShare TreeShare) (f : Buf (Elt F) (View.loc (c : Thread nD τ) (View.whole b))) :
    (View.loc (c : Thread nD τ) (View.whole b) ↦[(View.whole b).set]{q} f : sProp 𝕄) = (((c : Thread nD τ).loc b) ↦{q} f) := by
  rw [(Memref.isWhole_whole b).set_eq_univ]

/-- The shares the proof data names, window by window: the token matrix halved, the rest whole. -/
theorem share_0 (c : Dev nD) : (dat V c).share 0 = fullShare.left := rfl
theorem share_1 (c : Dev nD) : (dat V c).share 1 = fullShare.right := rfl
theorem share_2 (c : Dev nD) : (dat V c).share 2 = fullShare := rfl
theorem share_3 (c : Dev nD) : (dat V c).share 3 = fullShare := rfl
theorem share_4 (c : Dev nD) : (dat V c).share 4 = fullShare := rfl

/-- The arrays' entry contents are the region-entry valuation's. -/
theorem arrAt_zero (c : Dev nD) (w : Fin cfg0.W) : (dat V c).arrAt w 0 = V c (Pipeline.arrRef spec0 w) := rfl

/-- The buffers behind the windows' arrays, listed: four buffers for five windows. -/
theorem arrBufs_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_arg0) ↦{fullShare} V main_arg0) ∗ (((c : Thread nD τ).loc main_arg1) ↦{fullShare} V main_arg1)
          ∗ (((c : Thread nD τ).loc main_v0) ↦{fullShare} V main_v0) ∗ (((c : Thread nD τ).loc main_v1) ↦{fullShare} V main_v1)) := by
  unfold Pipeline.arrBufs
  exact bigSep_eq_bigSepL_of_eq [main_arg0, main_arg1, main_v0, main_v1] (by decide) (by decide) _

/-- ENTRY: the core's unscoped buffers are the windows' arrays at the shares the proof data names, and the rest. -/
theorem arrays_of_unscoped (c : Dev nD) :
    (unscopedBufs (Ix := Unit) (Name := ℕ) (U := UR sig nD τ) (Lvl := ℕ) c (V c) : sProp 𝕄)
      ⊢ iprop((dat V c).arrays ((dat V c).arrAt · 0) ∗ Pipeline.unscopedRest spec0 c (V c)) := by
  rw [Pipeline.unscopedBufs_split₀ cfgs 0 winFacts₀0.arr_unscoped c (V c)]
  refine sep_mono ?_ .rfl
  rw [show (Pipeline.arrBufs (cfgs 0).spec c (V c) : sProp 𝕄) = Pipeline.arrBufs spec0 c (V c) from rfl, arrBufs_eq c (V c)]
  unfold Pipeline.Dat.arrays
  rw [bigSep_W0]
  simp only [share_0, share_1, share_2, share_3, share_4, arrAt_zero]
  rw [whole_pt c main_arg0 fullShare.left (V c (Pipeline.arrRef spec0 0)), whole_pt c main_arg0 fullShare.right (V c (Pipeline.arrRef spec0 1)),
    whole_pt c main_arg1 fullShare (V c (Pipeline.arrRef spec0 2)), whole_pt c main_v0 fullShare (V c (Pipeline.arrRef spec0 3)),
    whole_pt c main_v1 fullShare (V c (Pipeline.arrRef spec0 4))]
  iintro ⟨HX, HP, HG, HO⟩
  ihave HXs := (pointsTo_share (PosShare.mem_left_op_right fullShare)).1 $$ HX
  icases HXs with ⟨Hx1, Hx2⟩
  isplitl [Hx1]; · iexact Hx1
  isplitl [Hx2]; · iexact Hx2
  isplitl [HP]; · iexact HP
  isplitl [HG]; · iexact HG
  iexact HO

/-- An input window's array ends as it was entered. -/
theorem arrAt_in0 (c : Dev nD) (n : Nat) : (dat V c).arrAt 0 n = V c (Pipeline.arrRef spec0 0) := ((dat V c).arrAt_in 0 rfl n).trans (A_eq V c 0)
theorem arrAt_in1 (c : Dev nD) (n : Nat) : (dat V c).arrAt 1 n = V c (Pipeline.arrRef spec0 1) := ((dat V c).arrAt_in 1 rfl n).trans (A_eq V c 1)
theorem arrAt_in2 (c : Dev nD) (n : Nat) : (dat V c).arrAt 2 n = V c (Pipeline.arrRef spec0 2) := ((dat V c).arrAt_in 2 rfl n).trans (A_eq V c 2)
theorem arrAt_in3 (c : Dev nD) (n : Nat) : (dat V c).arrAt 3 n = V c (Pipeline.arrRef spec0 3) := ((dat V c).arrAt_in 3 rfl n).trans (A_eq V c 3)

/-- EXIT: the windows' arrays at what the pipeline leaves, and the rest as entered, are the core's unscoped buffers at
    any contents that have the output array at what the write-backs left and every other buffer as entered. -/
theorem unscoped_of_arrays (c : Dev nD) (V' : (b : Ref sig .tc) → Buf (Elt F) ((c : Thread nD τ).loc b))
    (hout : V' main_v1 = (dat V c).arrAt 4 cfg0.N) (hrest : ∀ b, b ≠ main_v1 → V' b = V c b) :
    iprop((dat V c).arrays ((dat V c).arrAt · cfg0.N) ∗ Pipeline.unscopedRest spec0 c (V c))
      ⊢ (unscopedBufs (Ix := Unit) (Name := ℕ) (U := UR sig nD τ) (Lvl := ℕ) c V' : sProp 𝕄) := by
  rw [Pipeline.unscopedBufs_split₀ cfgs 0 winFacts₀0.arr_unscoped c V']
  refine sep_mono ?_ (Entails.of_eq ?_)
  · rw [show (Pipeline.arrBufs (cfgs 0).spec c V' : sProp 𝕄) = Pipeline.arrBufs spec0 c V' from rfl, arrBufs_eq c V']
    unfold Pipeline.Dat.arrays
    rw [bigSep_W0]
    simp only [share_0, share_1, share_2, share_3, share_4, arrAt_in0, arrAt_in1, arrAt_in2, arrAt_in3]
    rw [whole_pt c main_arg0 fullShare.left (V c (Pipeline.arrRef spec0 0)), whole_pt c main_arg0 fullShare.right (V c (Pipeline.arrRef spec0 1)),
      whole_pt c main_arg1 fullShare (V c (Pipeline.arrRef spec0 2)), whole_pt c main_v0 fullShare (V c (Pipeline.arrRef spec0 3)),
      whole_pt c main_v1 fullShare ((dat V c).arrAt 4 cfg0.N),
      hrest main_arg0 (by decide), hrest main_arg1 (by decide), hrest main_v0 (by decide), hout]
    iintro ⟨H0, H1, H2, H3, H4⟩
    ihave HX := (pointsTo_share (PosShare.mem_left_op_right fullShare)).2 $$ [H0 H1]
    · isplitl [H0] <;> iassumption
    isplitl [HX]; · iexact HX
    isplitl [H2]; · iexact H2
    isplitl [H3]; · iexact H3
    iexact H4
  · unfold Pipeline.unscopedRest
    exact bigSep_congr fun b hb => by
      rw [hrest b fun e => (Finset.mem_sdiff.mp hb).2 (e ▸ Finset.mem_image.mpr ⟨4, Finset.mem_univ _, rfl⟩)]

end Cert.Kernel.Region

end
-- ==== Proof.KernelRun.lean ====
/-
  The whole run of the program: a reshape of the gate on the host, the kernel region, a transpose on the host.

  The contents of the core's buffers are followed through the three segments.  The reshape writes the gate row; the
  region leaves every buffer as it was except the output array, which ends at what the write-backs of the eight
  grid points left; the transpose writes the result.  Every weakly fair execution terminates in a state whose
  buffers hold exactly these contents.
-/
import proofs.«135009_g28312424415705_cont_9to1_2284_19_alg».proof.Proof.KernelShares

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- At launch. -/
abbrev W0 : Dev nD → Valuation τ sig (Elt F) := fun c b => (s₀ m ρ).mem ((c : Dev nD), b)
/-- After the reshape: the region's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the region's exit: the output array at what the write-backs left, every other buffer as entered. -/
def W2 (c : Dev nD) : Valuation τ sig (Elt F) :=
  Function.update (W1 m ρ c) (Proc.devRef .tc main_v1) ((dat (V1 m ρ) c).arrAt 4 cfg0.N)
abbrev V2 : (c : Dev nD) → (b : Ref sig .tc) → Buf (Elt F) ((c : Thread nD τ).loc b) := fun c b => W2 m ρ c b
theorem W2_out (c : Dev nD) : W2 m ρ c (Proc.devRef .tc main_v1) = (dat (V1 m ρ) c).arrAt 4 cfg0.N := by
  unfold W2; exact Function.update_self ..
theorem W2_of_ne (c : Dev nD) (b : Ref sig .tc) (hb : b ≠ main_v1) : W2 m ρ c (Proc.devRef .tc b) = W1 m ρ c (Proc.devRef .tc b) := by
  unfold W2; exact Function.update_of_ne (fun e => hb (Proc.devRef_injective _ e)) ..
/-- After the transpose: the end. -/
abbrev W3 : Dev nD → Valuation τ sig (Elt F) := fun c => StableHlo.after hostOps1 (W2 m ρ c)

/-! ## The proof data family and the thread state -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat (V1 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over all the unscoped buffers. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, the owing apart. -/
abbrev Tₙ (c : Dev nD) : sProp 𝕄 := iprop(StableHlo.held (c : Thread nD τ) (Pipeline.ucRefs τ sig) (W3 m ρ c) ∗ ∃ r, prngReg c r)

/-! ## The region as a segment -/

set_option backward.isDefEq.respectTransparency.types false in
/-- The region, entered from every unscoped buffer at the entry contents and left with them at the exit contents.
    Its arrays are split out of the unscoped buffers, the token matrix between its two windows, and put back
    joined; the generator register goes into the invariant and comes back; nothing is owed; the kernel has no semaphore
    of its own. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := arrays_of_unscoped (V1 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := unscoped_of_arrays (V1 m ρ) c (V2 m ρ c) (W2_out m ρ c) (fun b hb => W2_of_ne m ρ c b hb)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)) ]

theorem main_run (c : Dev nD) : main (F := F) c = Pipeline.Seg.run (segs m ρ) := (main_chain c).trans (by chain_rfl)

set_option backward.isDefEq.respectTransparency.types false in
/-- THE RUN: from any memory with zero counters, every weakly fair execution of the program terminates, nothing
    faulting, and every unscoped buffer of every core ends at the contents followed above. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show iprop(StableHlo.held (c : Thread nD τ) (Pipeline.ucRefs τ sig) (W3 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

end Cert.Kernel.Region

end
-- ==== Proof.KernelEnds.lean ====
/-
  What the run's last contents hold at the argument arrays: neither host stretch writes one (the reshape writes the
  gate row, the transpose the result) and the region writes only its output array, so each argument is read back
  through the three segments to its launch contents.  That is the frame: the program terminates, faults nowhere
  and leaves its arguments unchanged.
-/
import proofs.«135009_g28312424415705_cont_9to1_2284_19_alg».proof.Proof.KernelRun

set_option maxRecDepth 16384

noncomputable section

namespace Cert.Kernel.Region

open Cert.Kernel Cert.Kernel.Gen
open Idealize.ShloMosaic Idealize.ShloMosaic.TcCoe Idealize.ShloMosaic.Tactic
open Idealize.SL Idealize.SL.Sem

variable {F : FTy → Type} [FloatOps F]

variable (m : (ℓ : Loc nD τ sig) → Buf (Elt F) ℓ) (ρ : Dev nD → PrngReg)

/-- A buffer that neither host stretch writes and that is not the region's output holds its launch contents at the end. -/
theorem W3_kept (c : Dev nD) (b : Ref sig .tc) (h0 : b ≠ main_v0) (h1 : b ≠ main_v1) (h2 : b ≠ main_v2) :
    W3 m ρ c (Proc.devRef .tc b) = m ((c : Thread nD τ).loc b) :=
  calc W3 m ρ c (Proc.devRef .tc b)
    _ = W2 m ρ c (Proc.devRef .tc b) := StableHlo.after_of_forall_not_mem (b := Proc.devRef .tc b) _ _ (List.forall_iff_forall_mem.mp (by
          simp only [hostOps1, List.Forall, StableHlo.unary_writes, Finset.mem_singleton]
          exact StableHlo.devRef_ne_of_ne h2))
    _ = W1 m ρ c (Proc.devRef .tc b) := W2_of_ne m ρ c b h1
    _ = W0 m ρ c (Proc.devRef .tc b) := StableHlo.after_of_forall_not_mem (b := Proc.devRef .tc b) _ _ (List.forall_iff_forall_mem.mp (by
          simp only [hostOps0, List.Forall, StableHlo.reshape_writes, Finset.mem_singleton]
          exact StableHlo.devRef_ne_of_ne h0))
    _ = m ((c : Thread nD τ).loc b) := rfl

theorem W3_main_arg0 (c : Dev nD) : W3 m ρ c (Proc.devRef .tc main_arg0) = m ((c : Thread nD τ).loc main_arg0) :=
  W3_kept m ρ c main_arg0 (by decide) (by decide) (by decide)
theorem W3_main_arg1 (c : Dev nD) : W3 m ρ c (Proc.devRef .tc main_arg1) = m ((c : Thread nD τ).loc main_arg1) :=
  W3_kept m ρ c main_arg1 (by decide) (by decide) (by decide)
theorem W3_main_arg2 (c : Dev nD) : W3 m ρ c (Proc.devRef .tc main_arg2) = m ((c : Thread nD τ).loc main_arg2) :=
  W3_kept m ρ c main_arg2 (by decide) (by decide) (by decide)

/-- THE FRAME, for any float family. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
      ⟨(h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c)⟩)
    (run_main m ρ)

end Cert.Kernel.Region

end
-- ==== Proof.KernelIdealRegion.lean ====
/-
  One grid point of the kernel region, for any float family.

  The region has five windows. Windows 0 and 1 both read the token matrix x : [8192, 4096], at the
  row blocks 2t and 2t+1 of 512 rows; window 2 is the whole prototype matrix p : [64, 4096]; window 3
  is the gate as a row [1, 64]; window 4 is the output, column block t of width 1024 of a
  [64, 8192] array.  At point t the body stores, into the left half of the output block,
  max (p · xaᵀ · 2⁻⁶ − gate, 0) and, into the right half, the same expression of the second row
  block xb.  The two stores tile the block, so afterwards the block is the canonical reading of the
  two pieces; the inputs' staging buffers are left as found.

  Because x is handed to two windows, each of them holds one half of the share of its array.
-/
import proofs.«135009_g28312424415705_cont_9to1_2284_19_alg».proof.Proof.Gen.KernelIdeal.Launch
import proofs.«135009_g28312424415705_cont_9to1_2284_19_alg».proof.Proof.Gen.KernelIdeal.Skeleton
import proofs.«135009_g28312424415705_cont_9to1_2284_19_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of the core when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether or not the point fetches it:
    a point that does not fetch has the block index of the point before. One statement per input window. -/
theorem before_in0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The rectangles the body reads and writes -/

abbrev rG : Rect S1x64 := Rect.unit (s := S1x64) ![0, 0] S1x64.size inb_S1x64_S1x64_0_0
abbrev rP : Rect S64x4096 := Rect.unit (s := S64x4096) ![0, 0] S64x4096.size inb_S64x4096_S64x4096_0_0
abbrev rX : Rect S512x4096 := Rect.unit (s := S512x4096) ![0, 0] S512x4096.size inb_S512x4096_S512x4096_0_0
abbrev rLo : Rect S64x1024 := Rect.unit (s := S64x1024) ![0, 0] S64x512.size inb_S64x1024_S64x512_0_0
abbrev rHi : Rect S64x1024 := Rect.unit (s := S64x1024) ![0, 512] S64x512.size inb_S64x1024_S64x512_0_512

/-! ## What the body leaves in the output block -/

/-- The output block after the body: the right half is the expression of the second row block, the left half
    that of the first (the later store listed first). -/
def outBlk (xa xb : Vec F S512x4096 .f32) (p : Vec F S64x4096 .f32) (g : Vec F S1x64 .f32) : Vec F S64x1024 .f32 :=
  View.canon [⟨rHi, k0_pay3 (View.ld g rG) (View.ld p rP) (View.ld xb rX)⟩,
              ⟨rLo, k0_pay2 (View.ld g rG) (View.ld p rP) (View.ld xa rX)⟩]

/-- The two halves tile the block. -/
theorem cover_out (p1 p0 : Vec F S64x512 .f32) (y : S64x1024.Idx) :
    ∃ pc ∈ ([⟨rHi, p1⟩, ⟨rLo, p0⟩] : List (View.Piece (Elt F) S64x1024 .f32)), y ∈ pc.1.set :=
  View.cover_of_tiled [⟨rHi, p1⟩, ⟨rLo, p0⟩] S64x512.size (by rfl) y

/-! ## The body's triple -/

set_option maxHeartbeats 1000000 in
/-- The body on whole staging memrefs: the four inputs at known contents, the output at anything; it returns the
    inputs as they were and the output at `outBlk` of them. -/
theorem sound_kernel (c : Dev nD) (E : Set ℕ) (i : grid0.Coords)
    (arg1 : Memref sig .tc .vmem S512x4096 .f32) (harg1 : arg1.IsWhole) (arg2 : Memref sig .tc .vmem S512x4096 .f32) (harg2 : arg2.IsWhole)
    (arg3 : Memref sig .tc .vmem S64x4096 .f32) (harg3 : arg3.IsWhole) (arg4 : Memref sig .tc .vmem S1x64 .f32) (harg4 : arg4.IsWhole)
    (arg5 : Memref sig .tc .vmem S64x1024 .f32) (harg5 : arg5.IsWhole)
    (xa xb : Vec F S512x4096 .f32) (p : Vec F S64x4096 .f32) (g : Vec F S1x64 .f32) (K : PUnit → sProp 𝕄) :
    iprop(owns (c : Thread nD τ) arg1 fullShare xa ∗ owns (c : Thread nD τ) arg2 fullShare xb
        ∗ owns (c : Thread nD τ) arg3 fullShare p ∗ owns (c : Thread nD τ) arg4 fullShare g
        ∗ (∃ d, owns (c : Thread nD τ) arg5 fullShare d)
        ∗ (iprop(owns (c : Thread nD τ) arg1 fullShare xa ∗ owns (c : Thread nD τ) arg2 fullShare xb
            ∗ owns (c : Thread nD τ) arg3 fullShare p ∗ owns (c : Thread nD τ) arg4 fullShare g
            ∗ owns (c : Thread nD τ) arg5 fullShare (outBlk xa xb p g)) -∗ K ⟨⟩))
      ⊢ wp frame (wpE (defs₀ (F := F)) Variants.none c none) E (cc0__body i arg1 harg1 arg2 harg2 arg3 harg3 arg4 harg4 arg5 harg5) K := by
  simp only [cc0__body_eq_skeleton]; unfold cc0__body_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_out _ _)

/-! ## The region's proof data -/

/-- The arrays as the region finds them; after the body each input's buffer at its block and the output's at
    `outBlk` of the input blocks; the invariant is the scoped rest and the generator register, untouched; nothing
    owed; the token matrix's share halved between its two windows. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => outBlk (iblk V c 0 t) (iblk V c 1 t) (iblk V c 2 t) (iblk V c 3 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) :
    (dat V c).after 4 t = outBlk (iblk V c 0 t) (iblk V c 1 t) (iblk V c 2 t) (iblk V c 3 t) := by dsimp only [dat]

theorem before_0 (c : Dev nD) (t : Fin cfg0.N) (d) : (dat V c).before 0 t d = iblk V c 0 t :=
  before_in0_of V (dat V c) (A_eq V c 0) (after_0 V c) t d
theorem before_1 (c : Dev nD) (t : Fin cfg0.N) (d) : (dat V c).before 1 t d = iblk V c 1 t :=
  before_in1_of V (dat V c) (A_eq V c 1) (after_1 V c) t d
theorem before_2 (c : Dev nD) (t : Fin cfg0.N) (d) : (dat V c).before 2 t d = iblk V c 2 t :=
  before_in2_of V (dat V c) (A_eq V c 2) (after_2 V c) t d
theorem before_3 (c : Dev nD) (t : Fin cfg0.N) (d) : (dat V c).before 3 t d = iblk V c 3 t :=
  before_in3_of V (dat V c) (A_eq V c 3) (after_3 V c) t d

/-! ## The body obligation -/

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d)))

def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t))

/-- The body at any point: the inputs' memrefs hold their blocks, so the triple applies; the invariant and what the
    core owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.Region

end
-- ==== Proof.KernelIdealShares.lean ====
/-
  The region's arrays at its two ends.

  At entry the core holds every buffer of the program whole.  The token matrix is read by two windows, so
  its full share is split into a left and a right half, one for each; the prototype matrix, the gate row and
  the output array go to their windows whole.  At exit the two halves of the token matrix, which hold the
  same (unchanged) contents, are joined again, and the output array is found at what the write-backs left.
-/
import proofs.«135009_g28312424415705_cont_9to1_2284_19_alg».proof.Proof.KernelIdealRegion

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A whole buffer held through its whole view is the buffer held. -/
theorem whole_pt (c : Dev nD) (b : Ref sig .tc) (q : PosShare TreeShare) (f : Buf (Elt F) (View.loc (c : Thread nD τ) (View.whole b))) :
    (View.loc (c : Thread nD τ) (View.whole b) ↦[(View.whole b).set]{q} f : sProp 𝕄) = (((c : Thread nD τ).loc b) ↦{q} f) := by
  rw [(Memref.isWhole_whole b).set_eq_univ]

/-- The shares the proof data names, window by window: the token matrix halved, the rest whole. -/
theorem share_0 (c : Dev nD) : (dat V c).share 0 = fullShare.left := rfl
theorem share_1 (c : Dev nD) : (dat V c).share 1 = fullShare.right := rfl
theorem share_2 (c : Dev nD) : (dat V c).share 2 = fullShare := rfl
theorem share_3 (c : Dev nD) : (dat V c).share 3 = fullShare := rfl
theorem share_4 (c : Dev nD) : (dat V c).share 4 = fullShare := rfl

/-- The arrays' entry contents are the region-entry valuation's. -/
theorem arrAt_zero (c : Dev nD) (w : Fin cfg0.W) : (dat V c).arrAt w 0 = V c (Pipeline.arrRef spec0 w) := rfl

/-- The buffers behind the windows' arrays, listed: four buffers for five windows. -/
theorem arrBufs_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_arg0) ↦{fullShare} V main_arg0) ∗ (((c : Thread nD τ).loc main_arg1) ↦{fullShare} V main_arg1)
          ∗ (((c : Thread nD τ).loc main_v0) ↦{fullShare} V main_v0) ∗ (((c : Thread nD τ).loc main_v1) ↦{fullShare} V main_v1)) := by
  unfold Pipeline.arrBufs
  exact bigSep_eq_bigSepL_of_eq [main_arg0, main_arg1, main_v0, main_v1] (by decide) (by decide) _

/-- ENTRY: the core's unscoped buffers are the windows' arrays at the shares the proof data names, and the rest. -/
theorem arrays_of_unscoped (c : Dev nD) :
    (unscopedBufs (Ix := Unit) (Name := ℕ) (U := UR sig nD τ) (Lvl := ℕ) c (V c) : sProp 𝕄)
      ⊢ iprop((dat V c).arrays ((dat V c).arrAt · 0) ∗ Pipeline.unscopedRest spec0 c (V c)) := by
  rw [Pipeline.unscopedBufs_split₀ cfgs 0 winFacts₀0.arr_unscoped c (V c)]
  refine sep_mono ?_ .rfl
  rw [show (Pipeline.arrBufs (cfgs 0).spec c (V c) : sProp 𝕄) = Pipeline.arrBufs spec0 c (V c) from rfl, arrBufs_eq c (V c)]
  unfold Pipeline.Dat.arrays
  rw [bigSep_W0]
  simp only [share_0, share_1, share_2, share_3, share_4, arrAt_zero]
  rw [whole_pt c main_arg0 fullShare.left (V c (Pipeline.arrRef spec0 0)), whole_pt c main_arg0 fullShare.right (V c (Pipeline.arrRef spec0 1)),
    whole_pt c main_arg1 fullShare (V c (Pipeline.arrRef spec0 2)), whole_pt c main_v0 fullShare (V c (Pipeline.arrRef spec0 3)),
    whole_pt c main_v1 fullShare (V c (Pipeline.arrRef spec0 4))]
  iintro ⟨HX, HP, HG, HO⟩
  ihave HXs := (pointsTo_share (PosShare.mem_left_op_right fullShare)).1 $$ HX
  icases HXs with ⟨Hx1, Hx2⟩
  isplitl [Hx1]; · iexact Hx1
  isplitl [Hx2]; · iexact Hx2
  isplitl [HP]; · iexact HP
  isplitl [HG]; · iexact HG
  iexact HO

/-- An input window's array ends as it was entered. -/
theorem arrAt_in0 (c : Dev nD) (n : Nat) : (dat V c).arrAt 0 n = V c (Pipeline.arrRef spec0 0) := ((dat V c).arrAt_in 0 rfl n).trans (A_eq V c 0)
theorem arrAt_in1 (c : Dev nD) (n : Nat) : (dat V c).arrAt 1 n = V c (Pipeline.arrRef spec0 1) := ((dat V c).arrAt_in 1 rfl n).trans (A_eq V c 1)
theorem arrAt_in2 (c : Dev nD) (n : Nat) : (dat V c).arrAt 2 n = V c (Pipeline.arrRef spec0 2) := ((dat V c).arrAt_in 2 rfl n).trans (A_eq V c 2)
theorem arrAt_in3 (c : Dev nD) (n : Nat) : (dat V c).arrAt 3 n = V c (Pipeline.arrRef spec0 3) := ((dat V c).arrAt_in 3 rfl n).trans (A_eq V c 3)

/-- EXIT: the windows' arrays at what the pipeline leaves, and the rest as entered, are the core's unscoped buffers at
    any contents that have the output array at what the write-backs left and every other buffer as entered. -/
theorem unscoped_of_arrays (c : Dev nD) (V' : (b : Ref sig .tc) → Buf (Elt F) ((c : Thread nD τ).loc b))
    (hout : V' main_v1 = (dat V c).arrAt 4 cfg0.N) (hrest : ∀ b, b ≠ main_v1 → V' b = V c b) :
    iprop((dat V c).arrays ((dat V c).arrAt · cfg0.N) ∗ Pipeline.unscopedRest spec0 c (V c))
      ⊢ (unscopedBufs (Ix := Unit) (Name := ℕ) (U := UR sig nD τ) (Lvl := ℕ) c V' : sProp 𝕄) := by
  rw [Pipeline.unscopedBufs_split₀ cfgs 0 winFacts₀0.arr_unscoped c V']
  refine sep_mono ?_ (Entails.of_eq ?_)
  · rw [show (Pipeline.arrBufs (cfgs 0).spec c V' : sProp 𝕄) = Pipeline.arrBufs spec0 c V' from rfl, arrBufs_eq c V']
    unfold Pipeline.Dat.arrays
    rw [bigSep_W0]
    simp only [share_0, share_1, share_2, share_3, share_4, arrAt_in0, arrAt_in1, arrAt_in2, arrAt_in3]
    rw [whole_pt c main_arg0 fullShare.left (V c (Pipeline.arrRef spec0 0)), whole_pt c main_arg0 fullShare.right (V c (Pipeline.arrRef spec0 1)),
      whole_pt c main_arg1 fullShare (V c (Pipeline.arrRef spec0 2)), whole_pt c main_v0 fullShare (V c (Pipeline.arrRef spec0 3)),
      whole_pt c main_v1 fullShare ((dat V c).arrAt 4 cfg0.N),
      hrest main_arg0 (by decide), hrest main_arg1 (by decide), hrest main_v0 (by decide), hout]
    iintro ⟨H0, H1, H2, H3, H4⟩
    ihave HX := (pointsTo_share (PosShare.mem_left_op_right fullShare)).2 $$ [H0 H1]
    · isplitl [H0] <;> iassumption
    isplitl [HX]; · iexact HX
    isplitl [H2]; · iexact H2
    isplitl [H3]; · iexact H3
    iexact H4
  · unfold Pipeline.unscopedRest
    exact bigSep_congr fun b hb => by
      rw [hrest b fun e => (Finset.mem_sdiff.mp hb).2 (e ▸ Finset.mem_image.mpr ⟨4, Finset.mem_univ _, rfl⟩)]

end Cert.KernelIdeal.Region

end
-- ==== Proof.KernelIdealRun.lean ====
/-
  The whole run of the program: a reshape of the gate on the host, the kernel region, a transpose on the host.

  The contents of the core's buffers are followed through the three segments.  The reshape writes the gate row; the
  region leaves every buffer as it was except the output array, which ends at what the write-backs of the eight
  grid points left; the transpose writes the result.  Every weakly fair execution terminates in a state whose
  buffers hold exactly these contents.
-/
import proofs.«135009_g28312424415705_cont_9to1_2284_19_alg».proof.Proof.KernelIdealShares

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- At launch. -/
abbrev W0 : Dev nD → Valuation τ sig (Elt F) := fun c b => (s₀ m ρ).mem ((c : Dev nD), b)
/-- After the reshape: the region's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the region's exit: the output array at what the write-backs left, every other buffer as entered. -/
def W2 (c : Dev nD) : Valuation τ sig (Elt F) :=
  Function.update (W1 m ρ c) (Proc.devRef .tc main_v1) ((dat (V1 m ρ) c).arrAt 4 cfg0.N)
abbrev V2 : (c : Dev nD) → (b : Ref sig .tc) → Buf (Elt F) ((c : Thread nD τ).loc b) := fun c b => W2 m ρ c b
theorem W2_out (c : Dev nD) : W2 m ρ c (Proc.devRef .tc main_v1) = (dat (V1 m ρ) c).arrAt 4 cfg0.N := by
  unfold W2; exact Function.update_self ..
theorem W2_of_ne (c : Dev nD) (b : Ref sig .tc) (hb : b ≠ main_v1) : W2 m ρ c (Proc.devRef .tc b) = W1 m ρ c (Proc.devRef .tc b) := by
  unfold W2; exact Function.update_of_ne (fun e => hb (Proc.devRef_injective _ e)) ..
/-- After the transpose: the end. -/
abbrev W3 : Dev nD → Valuation τ sig (Elt F) := fun c => StableHlo.after hostOps1 (W2 m ρ c)

/-! ## The proof data family and the thread state -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat (V1 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over all the unscoped buffers. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, the owing apart. -/
abbrev Tₙ (c : Dev nD) : sProp 𝕄 := iprop(StableHlo.held (c : Thread nD τ) (Pipeline.ucRefs τ sig) (W3 m ρ c) ∗ ∃ r, prngReg c r)

/-! ## The region as a segment -/

set_option backward.isDefEq.respectTransparency.types false in
/-- The region, entered from every unscoped buffer at the entry contents and left with them at the exit contents.
    Its arrays are split out of the unscoped buffers, the token matrix between its two windows, and put back
    joined; the generator register goes into the invariant and comes back; nothing is owed; the kernel has no semaphore
    of its own. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := arrays_of_unscoped (V1 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := unscoped_of_arrays (V1 m ρ) c (V2 m ρ c) (W2_out m ρ c) (fun b hb => W2_of_ne m ρ c b hb)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)) ]

theorem main_run (c : Dev nD) : main (F := F) c = Pipeline.Seg.run (segs m ρ) := (main_chain c).trans (by chain_rfl)

set_option backward.isDefEq.respectTransparency.types false in
/-- THE RUN: from any memory with zero counters, every weakly fair execution of the program terminates, nothing
    faulting, and every unscoped buffer of every core ends at the contents followed above. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show iprop(StableHlo.held (c : Thread nD τ) (Pipeline.ucRefs τ sig) (W3 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

end Cert.KernelIdeal.Region

end
-- ==== Proof.KernelIdealEnds.lean ====
/-
  What the run's last contents hold at the argument arrays: neither host stretch writes one (the reshape writes the
  gate row, the transpose the result) and the region writes only its output array, so each argument is read back
  through the three segments to its launch contents.  That is the frame: the program terminates, faults nowhere
  and leaves its arguments unchanged.
-/
import proofs.«135009_g28312424415705_cont_9to1_2284_19_alg».proof.Proof.KernelIdealRun

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.Sem

variable {F : FTy → Type} [FloatOps F]

variable (m : (ℓ : Loc nD τ sig) → Buf (Elt F) ℓ) (ρ : Dev nD → PrngReg)

/-- A buffer that neither host stretch writes and that is not the region's output holds its launch contents at the end. -/
theorem W3_kept (c : Dev nD) (b : Ref sig .tc) (h0 : b ≠ main_v0) (h1 : b ≠ main_v1) (h2 : b ≠ main_v2) :
    W3 m ρ c (Proc.devRef .tc b) = m ((c : Thread nD τ).loc b) :=
  calc W3 m ρ c (Proc.devRef .tc b)
    _ = W2 m ρ c (Proc.devRef .tc b) := StableHlo.after_of_forall_not_mem (b := Proc.devRef .tc b) _ _ (List.forall_iff_forall_mem.mp (by
          simp only [hostOps1, List.Forall, StableHlo.unary_writes, Finset.mem_singleton]
          exact StableHlo.devRef_ne_of_ne h2))
    _ = W1 m ρ c (Proc.devRef .tc b) := W2_of_ne m ρ c b h1
    _ = W0 m ρ c (Proc.devRef .tc b) := StableHlo.after_of_forall_not_mem (b := Proc.devRef .tc b) _ _ (List.forall_iff_forall_mem.mp (by
          simp only [hostOps0, List.Forall, StableHlo.reshape_writes, Finset.mem_singleton]
          exact StableHlo.devRef_ne_of_ne h0))
    _ = m ((c : Thread nD τ).loc b) := rfl

theorem W3_main_arg0 (c : Dev nD) : W3 m ρ c (Proc.devRef .tc main_arg0) = m ((c : Thread nD τ).loc main_arg0) :=
  W3_kept m ρ c main_arg0 (by decide) (by decide) (by decide)
theorem W3_main_arg1 (c : Dev nD) : W3 m ρ c (Proc.devRef .tc main_arg1) = m ((c : Thread nD τ).loc main_arg1) :=
  W3_kept m ρ c main_arg1 (by decide) (by decide) (by decide)
theorem W3_main_arg2 (c : Dev nD) : W3 m ρ c (Proc.devRef .tc main_arg2) = m ((c : Thread nD τ).loc main_arg2) :=
  W3_kept m ρ c main_arg2 (by decide) (by decide) (by decide)

/-- THE FRAME, for any float family. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
      ⟨(h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c)⟩)
    (run_main m ρ)

end Cert.KernelIdeal.Region

end
-- ==== Proof.KernelIdealPayload.lean ====
/-
  The body's arithmetic read at an index, at the ideal instance.

  With p the prototype block [64, 4096], xa a row block of the tokens [512, 4096] and g the gate row [1, 64],
  each of the body's two stored values is, at row n and column j,

      max ((Σ_k p(n,k) · xa(j,k)) · 2⁻⁶ − g(0,n), 0).

  The matrix unit's product into a zero accumulator is the plain sum over the contracted axis; the gate row is
  transposed to a column and broadcast along the columns, so its entry at (n, j) is g(0, n).
-/
import proofs.«135009_g28312424415705_cont_9to1_2284_19_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-! ## The matrix product at an index -/

theorem lhs_0 (i : S64x512.Idx) (q : dot_S64x4096_S512x4096_S64x512_1_1_0_0_n_n.contr.Idx) :
    (dot_S64x4096_S512x4096_S64x512_1_1_0_0_n_n.lhsIdx i q 0).val = (i 0).val := by
  unfold DotDims.lhsIdx
  rw [dif_neg (show ¬(0 : Fin S64x4096.rank) ∈ dot_S64x4096_S512x4096_S64x512_1_1_0_0_n_n.lhsBatch by decide), dif_pos (show (0 : Fin S64x4096.rank) ∈ dot_S64x4096_S512x4096_S64x512_1_1_0_0_n_n.lhsNonContracting by decide)]
  rfl
theorem lhs_1 (i : S64x512.Idx) (q : dot_S64x4096_S512x4096_S64x512_1_1_0_0_n_n.contr.Idx) :
    (dot_S64x4096_S512x4096_S64x512_1_1_0_0_n_n.lhsIdx i q 1).val = (q ⟨0, by decide⟩).val :=
  dot_S64x4096_S512x4096_S64x512_1_1_0_0_n_n.lhsIdx_val_of_single rfl i q
theorem rhs_0 (i : S64x512.Idx) (q : dot_S64x4096_S512x4096_S64x512_1_1_0_0_n_n.contr.Idx) :
    (dot_S64x4096_S512x4096_S64x512_1_1_0_0_n_n.rhsIdx i q 0).val = (i 1).val := by
  unfold DotDims.rhsIdx
  rw [dif_neg (show ¬(0 : Fin S512x4096.rank) ∈ dot_S64x4096_S512x4096_S64x512_1_1_0_0_n_n.rhsBatch by decide), dif_pos (show (0 : Fin S512x4096.rank) ∈ dot_S64x4096_S512x4096_S64x512_1_1_0_0_n_n.rhsNonContracting by decide)]
  rfl
theorem rhs_1 (i : S64x512.Idx) (q : dot_S64x4096_S512x4096_S64x512_1_1_0_0_n_n.contr.Idx) :
    (dot_S64x4096_S512x4096_S64x512_1_1_0_0_n_n.rhsIdx i q 1).val = (q ⟨0, by decide⟩).val :=
  dot_S64x4096_S512x4096_S64x512_1_1_0_0_n_n.rhsIdx_val_of_single rfl i q

/-- The product of the prototype block with a token block, both contracted on their second axis, into a zero
    accumulator: entry (n, j) is the sum over k of p(n,k) · xa(j,k). -/
theorem matmul_at (p : Vec Ideal S64x4096 .f32) (xa : Vec Ideal S512x4096 .f32) (n : Fin 64) (j : Fin 512) :
    matmul (F := Ideal) (φ₁ := .f32) (φ₂ := .f32) dot_S64x4096_S512x4096_S64x512_1_1_0_0_n_n none p xa (constant (F := Ideal) S64x512 .f32 0x00000000#32) (ix2 n j)
      = ∑ k : Fin 4096, p (ix2 n k) * xa (ix2 j k) := by
  show FloatOps.matmul (F := Ideal) (φ₁ := .f32) (φ₂ := .f32) dot_S64x4096_S512x4096_S64x512_1_1_0_0_n_n none p xa (constant (F := Ideal) S64x512 .f32 0x00000000#32) (ix2 n j) = _
  rw [Ideal.matmul_constant_zero_apply, ← Equiv.sum_comp (ValueIdx.contrEquiv1 dot_S64x4096_S512x4096_S64x512_1_1_0_0_n_n 4096 rfl rfl).symm]
  refine Finset.sum_congr rfl fun k _ => ?_
  have hk := ValueIdx.contrEquiv1_symm_val dot_S64x4096_S512x4096_S64x512_1_1_0_0_n_n 4096 rfl rfl k
  have el : dot_S64x4096_S512x4096_S64x512_1_1_0_0_n_n.lhsIdx (ix2 n j) ((ValueIdx.contrEquiv1 dot_S64x4096_S512x4096_S64x512_1_1_0_0_n_n 4096 rfl rfl).symm k) = ix2 n k := funext fun a => Fin.ext (by
    match a with
    | ⟨0, _⟩ => exact lhs_0 _ _
    | ⟨1, _⟩ => exact (lhs_1 _ _).trans hk)
  have er : dot_S64x4096_S512x4096_S64x512_1_1_0_0_n_n.rhsIdx (ix2 n j) ((ValueIdx.contrEquiv1 dot_S64x4096_S512x4096_S64x512_1_1_0_0_n_n 4096 rfl rfl).symm k) = ix2 j k := funext fun a => Fin.ext (by
    match a with
    | ⟨0, _⟩ => exact rhs_0 _ _
    | ⟨1, _⟩ => exact (rhs_1 _ _).trans hk)
  rw [el, er]

/-! ## The gate as a column -/

/-- The gate row, transposed to a column: entry (n, 0) is g(0, n). -/
theorem gate_col (g : Vec Ideal S1x64 .f32) (n : Fin 64) (z : Fin 1) :
    k0_pay1 (F := Ideal) g (ix2 n z) = g (ix2 z n) := by
  unfold k0_pay1
  rw [shapeCast_self]
  exact transpose_ix2_apply g transposes_S1x64_p1_0_S64x1 n z

/-- The gate column broadcast along the columns: entry (n, j) is g(0, n). -/
theorem gate_bcast (g : Vec Ideal S1x64 .f32) (n : Fin 64) (j : Fin 512) :
    broadcastTo S64x512 (k0_pay1 (F := Ideal) g) broadcasts_S64x1_S64x512 (ix2 n j) = g (ix2 (0 : Fin 1) n) := by
  rw [broadcastTo_apply (k0_pay1 (F := Ideal) g) broadcasts_S64x1_S64x512 (ix2 n j) (ix2 n (0 : Fin 1)) (fun a => by
    match a with
    | ⟨0, _⟩ => show n.val = if (64 : Nat) = 1 then 0 else n.val; rw [if_neg (by decide)]
    | ⟨1, _⟩ => show (0 : Nat) = if (1 : Nat) = 1 then 0 else j.val; rw [if_pos rfl])]
  exact gate_col g n 0

/-! ## The two stored values -/

/-- The value stored into the left half of the output block. -/
theorem pay2_at (g : Vec Ideal S1x64 .f32) (p : Vec Ideal S64x4096 .f32) (xa : Vec Ideal S512x4096 .f32) (n : Fin 64) (j : Fin 512) :
    k0_pay2 (F := Ideal) g p xa (ix2 n j)
      = FloatOps.maximumf (FloatOps.subf (FloatOps.mulf (∑ k : Fin 4096, p (ix2 n k) * xa (ix2 j k)) (FloatOps.ofBits .f32 0x3C800000#32))
          (g (ix2 (0 : Fin 1) n))) (FloatOps.ofBits .f32 0x00000000#32) := by
  unfold k0_pay2
  show FloatOps.maximumf (FloatOps.subf (FloatOps.mulf (matmul dot_S64x4096_S512x4096_S64x512_1_1_0_0_n_n none p xa (constant S64x512 .f32 0x00000000#32) (ix2 n j)) (FloatOps.ofBits .f32 0x3C800000#32))
      (broadcastTo S64x512 (k0_pay1 (F := Ideal) g) broadcasts_S64x1_S64x512 (ix2 n j))) (FloatOps.ofBits .f32 0x00000000#32) = _
  rw [matmul_at, gate_bcast]

/-- The value stored into the right half: the same expression of the second token block. -/
theorem pay3_at (g : Vec Ideal S1x64 .f32) (p : Vec Ideal S64x4096 .f32) (xb : Vec Ideal S512x4096 .f32) (n : Fin 64) (j : Fin 512) :
    k0_pay3 (F := Ideal) g p xb (ix2 n j)
      = FloatOps.maximumf (FloatOps.subf (FloatOps.mulf (∑ k : Fin 4096, p (ix2 n k) * xb (ix2 j k)) (FloatOps.ofBits .f32 0x3C800000#32))
          (g (ix2 (0 : Fin 1) n))) (FloatOps.ofBits .f32 0x00000000#32) := by
  unfold k0_pay3
  show FloatOps.maximumf (FloatOps.subf (FloatOps.mulf (matmul dot_S64x4096_S512x4096_S64x512_1_1_0_0_n_n none p xb (constant S64x512 .f32 0x00000000#32) (ix2 n j)) (FloatOps.ofBits .f32 0x3C800000#32))
      (broadcastTo S64x512 (k0_pay1 (F := Ideal) g) broadcasts_S64x1_S64x512 (ix2 n j))) (FloatOps.ofBits .f32 0x00000000#32) = _
  rw [matmul_at, gate_bcast]

end Cert.KernelIdeal.Payload

end
-- ==== Proof.KernelIdealBlocks.lean ====
/-
  From blocks to the array, at the ideal instance.

  The output array [64, 8192] is ONE function of the three arrays the region reads: at row n and column b it is

      max ((Σ_k P(n,k) · X(b,k)) · 2⁻⁶ − G(0,n), 0),

  with X the token matrix, P the prototype matrix and G the gate row.  Grid point t writes back column block t,
  of width 1024.  Its left half is computed from token row block 2t, whose row j is row 1024·t + j of X; its right
  half from row block 2t+1, whose row j is row 1024·t + 512 + j of X.  So both stored values are this function at
  the array index the block's index names, and since the eight blocks tile the array, the array ends holding it.
-/
import proofs.«135009_g28312424415705_cont_9to1_2284_19_alg».proof.Proof.KernelIdealRegion
import proofs.«135009_g28312424415705_cont_9to1_2284_19_alg».proof.Proof.KernelIdealPayload
import Idealize.ShloMosaic.Lib.Pipeline.Value

set_option maxRecDepth 16384

noncomputable section

namespace Cert.KernelIdeal.Region

open Cert.KernelIdeal Cert.KernelIdeal.Gen Cert.KernelIdeal.Payload
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid's eight points. -/
theorem idx_facts : ∀ t : Fin cfg0.N, win0_0.index t (0 : Fin 2) = 2 * t.val ∧ win0_0.index t (1 : Fin 2) = 0
    ∧ win0_1.index t (0 : Fin 2) = 2 * t.val + 1 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = t.val :=
  (by decide +kernel : ∀ t : Fin grid0.N, _)

/-! ## The input blocks at explicit coordinates -/

/-- Row j of the first token block at point t is row 1024·t + j of the token matrix. -/
theorem iblk0_at (c : Dev nD) (t : Fin cfg0.N) (j : Fin 512) (k : Fin 4096) (r : Fin 8192) (hr : r.val = t.val * 1024 + j.val) :
    iblk V c 0 t (ix2 j k) = V c main_arg0 (ix2 r k) := by
  obtain ⟨e00, e01, -⟩ := idx_facts t
  show V c main_arg0 (((cfg0.win 0).blk t).view.emb (ix2 j k)) = _
  refine congrArg _ (funext fun a => Fin.ext ?_)
  match a with
  | ⟨0, _⟩ => show win0_0.index t (0 : Fin 2) * 512 + 1 * j.val = r.val; omega
  | ⟨1, _⟩ => show win0_0.index t (1 : Fin 2) * 4096 + 1 * k.val = k.val; omega

/-- Row j of the second token block at point t is row 1024·t + 512 + j. -/
theorem iblk1_at (c : Dev nD) (t : Fin cfg0.N) (j : Fin 512) (k : Fin 4096) (r : Fin 8192) (hr : r.val = t.val * 1024 + 512 + j.val) :
    iblk V c 1 t (ix2 j k) = V c main_arg0 (ix2 r k) := by
  obtain ⟨-, -, e10, e11, -⟩ := idx_facts t
  show V c main_arg0 (((cfg0.win 1).blk t).view.emb (ix2 j k)) = _
  refine congrArg _ (funext fun a => Fin.ext ?_)
  match a with
  | ⟨0, _⟩ => show win0_1.index t (0 : Fin 2) * 512 + 1 * j.val = r.val; omega
  | ⟨1, _⟩ => show win0_1.index t (1 : Fin 2) * 4096 + 1 * k.val = k.val; omega

/-- The prototype block is the whole prototype matrix. -/
theorem iblk2_at (c : Dev nD) (t : Fin cfg0.N) (n : Fin 64) (k : Fin 4096) :
    iblk V c 2 t (ix2 n k) = V c main_arg1 (ix2 n k) := by
  obtain ⟨-, -, -, -, e20, e21, -⟩ := idx_facts t
  show V c main_arg1 (((cfg0.win 2).blk t).view.emb (ix2 n k)) = _
  refine congrArg _ (funext fun a => Fin.ext ?_)
  match a with
  | ⟨0, _⟩ => show win0_2.index t (0 : Fin 2) * 64 + 1 * n.val = n.val; omega
  | ⟨1, _⟩ => show win0_2.index t (1 : Fin 2) * 4096 + 1 * k.val = k.val; omega

/-- The gate block is the whole gate row. -/
theorem iblk3_at (c : Dev nD) (t : Fin cfg0.N) (z : Fin 1) (n : Fin 64) :
    iblk V c 3 t (ix2 z n) = V c main_v0 (ix2 z n) := by
  obtain ⟨-, -, -, -, -, -, e30, e31, -⟩ := idx_facts t
  show V c main_v0 (((cfg0.win 3).blk t).view.emb (ix2 z n)) = _
  refine congrArg _ (funext fun a => Fin.ext ?_)
  match a with
  | ⟨0, _⟩ => show win0_3.index t (0 : Fin 2) * 1 + 1 * z.val = z.val; omega
  | ⟨1, _⟩ => show win0_3.index t (1 : Fin 2) * 64 + 1 * n.val = n.val; omega

/-! ## The output array as one function -/

/-- The output array: at (n, b), the scaled product of prototype row n with token row b, less the gate at n, clamped below at zero. -/
def outArr (X : (⟨S8192x4096, .f32⟩ : BufTy).Contents (Elt Ideal)) (P : (⟨S64x4096, .f32⟩ : BufTy).Contents (Elt Ideal))
    (G : (⟨S1x64, .f32⟩ : BufTy).Contents (Elt Ideal)) : (⟨S64x8192, .f32⟩ : BufTy).Contents (Elt Ideal) := fun i =>
  FloatOps.maximumf (F := Ideal) (FloatOps.subf (F := Ideal) (FloatOps.mulf (F := Ideal)
      (∑ k : Fin 4096, P (ix2 (⟨(i 0).val, (i 0).isLt⟩ : Fin 64) k) * X (ix2 (⟨(i 1).val, (i 1).isLt⟩ : Fin 8192) k))
      (FloatOps.ofBits (F := Ideal) .f32 0x3C800000#32)) (G (ix2 (0 : Fin 1) (⟨(i 0).val, (i 0).isLt⟩ : Fin 64)))) (FloatOps.ofBits (F := Ideal) .f32 0x00000000#32)

theorem outArr_at (X : (⟨S8192x4096, .f32⟩ : BufTy).Contents (Elt Ideal)) (P : (⟨S64x4096, .f32⟩ : BufTy).Contents (Elt Ideal))
    (G : (⟨S1x64, .f32⟩ : BufTy).Contents (Elt Ideal)) (n : Fin 64) (b : Fin 8192) :
    outArr X P G (ix2 n b) = FloatOps.maximumf (F := Ideal) (FloatOps.subf (F := Ideal) (FloatOps.mulf (F := Ideal)
      (∑ k : Fin 4096, P (ix2 n k) * X (ix2 b k)) (FloatOps.ofBits (F := Ideal) .f32 0x3C800000#32)) (G (ix2 (0 : Fin 1) n))) (FloatOps.ofBits (F := Ideal) .f32 0x00000000#32) := rfl

/-! ## What each point writes back -/

/-- Point t writes back block t of `outArr` of the arrays as the region finds them. -/
theorem flushed_eq (c : Dev nD) (t : Fin cfg0.N) :
    (dat V c).flushed 4 t = ((cfg0.win 4).blk t).view.read (Elt Ideal) (outArr (V c main_arg0) (V c main_arg1) (V c main_v0)) := by
  show (cfg0.win 4).cut (grid0.coords t) ((dat V c).after 4 t) = _
  rw [after_4]
  unfold outBlk
  simp only [View.ld_unit_zero (S := S1x64) hz, View.ld_unit_zero (S := S64x4096) hz, View.ld_unit_zero (S := S512x4096) hz]
  funext y
  show View.canon [(⟨rHi, k0_pay3 (F := Ideal) (iblk V c 3 t) (iblk V c 2 t) (iblk V c 1 t)⟩ : View.Piece (Elt Ideal) S64x1024 .f32),
      ⟨rLo, k0_pay2 (F := Ideal) (iblk V c 3 t) (iblk V c 2 t) (iblk V c 0 t)⟩] y
    = outArr (V c main_arg0) (V c main_arg1) (V c main_v0) (((cfg0.win 4).blk t).view.emb y)
  refine View.canon_apply_of_pieces (fun y => outArr (V c main_arg0) (V c main_arg1) (V c main_v0) (((cfg0.win 4).blk t).view.emb y)) _ ?_ y
    (cover_out _ _ y)
  obtain ⟨-, -, -, -, -, -, -, -, e40, e41⟩ := idx_facts t
  have ht : t.val < 8 := Nat.lt_of_lt_of_eq t.isLt N_0
  intro p hp x
  rcases List.mem_cons.mp hp with rfl | hp
  · -- the right half: columns 512 … 1023 of the block
    obtain ⟨n, j, rfl⟩ : ∃ (n : Fin 64) (j : Fin 512), x = ix2 n j := ⟨x 0, x 1, eq_ix2 x⟩
    show k0_pay3 (F := Ideal) (iblk V c 3 t) (iblk V c 2 t) (iblk V c 1 t) (ix2 n j) = _
    rw [pay3_at]
    have hb : t.val * 1024 + 512 + j.val < 8192 := by have := j.isLt; omega
    have hi : ((cfg0.win 4).blk t).view.emb (rHi.emb (ix2 n j)) = ix2 n (⟨t.val * 1024 + 512 + j.val, hb⟩ : Fin 8192) := by
      funext a; apply Fin.ext
      match a with
      | ⟨0, _⟩ => show win0_4.index t (0 : Fin 2) * 64 + 1 * (0 + 1 * n.val) = n.val; omega
      | ⟨1, _⟩ => show win0_4.index t (1 : Fin 2) * 1024 + 1 * (512 + 1 * j.val) = t.val * 1024 + 512 + j.val; omega
    show _ = outArr (V c main_arg0) (V c main_arg1) (V c main_v0) (((cfg0.win 4).blk t).view.emb (rHi.emb (ix2 n j)))
    rw [hi, outArr_at, iblk3_at]
    simp only [iblk2_at, iblk1_at V c t _ _ (⟨t.val * 1024 + 512 + j.val, hb⟩ : Fin 8192) rfl]
  · -- the left half: columns 0 … 511
    obtain rfl := List.mem_singleton.mp hp
    obtain ⟨n, j, rfl⟩ : ∃ (n : Fin 64) (j : Fin 512), x = ix2 n j := ⟨x 0, x 1, eq_ix2 x⟩
    show k0_pay2 (F := Ideal) (iblk V c 3 t) (iblk V c 2 t) (iblk V c 0 t) (ix2 n j) = _
    rw [pay2_at]
    have hb : t.val * 1024 + j.val < 8192 := by have := j.isLt; omega
    have hi : ((cfg0.win 4).blk t).view.emb (rLo.emb (ix2 n j)) = ix2 n (⟨t.val * 1024 + j.val, hb⟩ : Fin 8192) := by
      funext a; apply Fin.ext
      match a with
      | ⟨0, _⟩ => show win0_4.index t (0 : Fin 2) * 64 + 1 * (0 + 1 * n.val) = n.val; omega
      | ⟨1, _⟩ => show win0_4.index t (1 : Fin 2) * 1024 + 1 * (0 + 1 * j.val) = t.val * 1024 + j.val; omega
    show _ = outArr (V c main_arg0) (V c main_arg1) (V c main_v0) (((cfg0.win 4).blk t).view.emb (rLo.emb (ix2 n j)))
    rw [hi, outArr_at, iblk3_at]
    simp only [iblk2_at, iblk0_at V c t _ _ (⟨t.val * 1024 + j.val, hb⟩ : Fin 8192) rfl]

/-! ## The eight blocks tile the array -/

/-- An index of the output array is in point t's block iff each coordinate is in the block's range on its axis. -/
theorem mem_blk (t : Fin cfg0.N) (i : S64x8192.Idx) :
    i ∈ ((cfg0.win 4).blk t).view.set ↔ ∀ a : Fin 2, win0_4.index t a * S64x1024.size a ≤ (i a).val ∧ (i a).val < win0_4.index t a * S64x1024.size a + S64x1024.size a := by
  show i ∈ ((View.whole main_v1).slice (win0_4.rect t)).set ↔ _
  rw [View.set_slice_whole, Rect.mem_set_unit]
  exact Iff.rfl

/-- Column b lies in the block of point ⌊b / 1024⌋, which writes back. -/
theorem cover (i : S64x8192.Idx) : ∃ t : Fin cfg0.N, (cfg0.win 4).flush t = true ∧ i ∈ ((cfg0.win 4).blk t).view.set := by
  have hi0 : (i 0).val < 64 := (i 0).isLt
  have hi1 : (i 1).val < 8192 := (i 1).isLt
  have hlt : (i 1).val / 1024 < cfg0.N := Nat.lt_of_lt_of_eq (by omega : (i 1).val / 1024 < 8) N_0.symm
  obtain ⟨-, -, -, -, -, -, -, -, e40, e41⟩ := idx_facts ⟨(i 1).val / 1024, hlt⟩
  refine ⟨⟨(i 1).val / 1024, hlt⟩, flush0_4 _, ?_⟩
  rw [mem_blk]
  intro a
  match a with
  | ⟨0, _⟩ =>
    show win0_4.index ⟨(i 1).val / 1024, hlt⟩ (0 : Fin 2) * 64 ≤ (i 0).val ∧ (i 0).val < win0_4.index ⟨(i 1).val / 1024, hlt⟩ (0 : Fin 2) * 64 + 64
    omega
  | ⟨1, _⟩ =>
    show win0_4.index ⟨(i 1).val / 1024, hlt⟩ (1 : Fin 2) * 1024 ≤ (i 1).val ∧ (i 1).val < win0_4.index ⟨(i 1).val / 1024, hlt⟩ (1 : Fin 2) * 1024 + 1024
    have e : win0_4.index ⟨(i 1).val / 1024, hlt⟩ (1 : Fin 2) = (i 1).val / 1024 := e41
    omega

/-- THE OUTPUT ARRAY after the region: `outArr` of the arrays as the region finds them. -/
theorem final (c : Dev nD) : (dat V c).arrAt 4 cfg0.N = outArr (V c main_arg0) (V c main_arg1) (V c main_v0) :=
  (dat V c).arrAt_eq_of_cover 4 _ (fun t _ => flushed_eq V c t) cover

end Cert.KernelIdeal.Region

end
-- ==== Proof.Spec.lean ====
/-
  The one law that joins the two programs.  The kernel scales the matrix product by the float 2⁻⁶ (the word
  0x3C800000, which is 1/64 exactly, 1/sqrt 4096); the reference divides it by the float 64 (the word 0x42800000).
  At the ideal instance a float is an extended real, and dividing by the real 64 is multiplying by 1/64 on every
  extended real, the infinities included: no finiteness is needed.
-/
import Idealize.ShloMosaic.PureOps.Ideal
import Idealize.ShloMosaic.PureOps.Ideal.Laws

noncomputable section

namespace Cert.Spec

open Idealize.ShloMosaic

/-- The reference's divisor denotes the real 64. -/
theorem ofBits_64 : Ideal.ofBits .f32 0x42800000#32 = ((64 : ℝ) : EReal) := by
  simp [Ideal.ofBits, Ideal.ieee, -EReal.coe_mul]; norm_num

/-- The kernel's scale denotes the real 1/64. -/
theorem ofBits_inv64 : Ideal.ofBits .f32 0x3C800000#32 = ((1 / 64 : ℝ) : EReal) := by
  simp [Ideal.ofBits, Ideal.ieee, -EReal.coe_mul]; norm_num

/-- Scaling by 2⁻⁶ is the host's division by 64, on every extended real. -/
theorem scale_eq (s : Ideal .f32) :
    FloatOps.mulf (F := Ideal) s (FloatOps.ofBits .f32 0x3C800000#32) = FloatOps.hostDivf (F := Ideal) s (FloatOps.ofBits .f32 0x42800000#32) := by
  rw [Ideal.mulf_def, Ideal.hostDivf_def, Ideal.ofBits_def, Ideal.ofBits_def, ofBits_64, ofBits_inv64,
    Ideal.div_coe (by norm_num : (64 : ℝ) ≠ 0)]

end Cert.Spec

end
-- ==== Proof.RefRead.lean ====
/-
  The reference program's run and its stages read at an index, brought in for the value bridge.
-/
import proofs.«135009_g28312424415705_cont_9to1_2284_19_alg».proof.Proof.Gen.ReferenceIdeal.Read
-- ==== Proof.KernelIdealValue.lean ====
/-
  The kernel's result is the reference's.

  The region finds the token and prototype matrices as launched and the gate reshaped to a row, so the output array
  is `outArr` of them; the host transposes it.  Hence the result at (b, n) is

      max ((Σ_k P(n,k) · X(b,k)) · 2⁻⁶ − g(n), 0).

  The reference computes  max ((Σ_k X(b,k) · P(n,k)) / 64 − g(n), 0).  The products commute under the sum, and the
  scaling by 2⁻⁶ is the division by 64 on every extended real.
-/
import proofs.«135009_g28312424415705_cont_9to1_2284_19_alg».proof.Proof.KernelIdealEnds
import proofs.«135009_g28312424415705_cont_9to1_2284_19_alg».proof.Proof.KernelIdealBlocks
import proofs.«135009_g28312424415705_cont_9to1_2284_19_alg».proof.Proof.Spec
import proofs.«135009_g28312424415705_cont_9to1_2284_19_alg».proof.Proof.RefRead
import Idealize.ShloMosaic.Lib.StableHlo.Run
import Idealize.ShloMosaic.Lib.ValueLayout

set_option maxRecDepth 16384

noncomputable section

namespace Cert.KernelIdeal.Region

open Cert.KernelIdeal Cert.KernelIdeal.Gen
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ) (ρ : Dev nD → PrngReg)

/-! ## What the region finds -/

theorem V1_arg0 (c : Dev nD) : V1 m ρ c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    exact StableHlo.devRef_ne_of_ne (by decide)))

theorem V1_arg1 (c : Dev nD) : V1 m ρ c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    exact StableHlo.devRef_ne_of_ne (by decide)))

/-- The gate row is the gate reshaped. -/
theorem V1_v0 (c : Dev nD) :
    (V1 m ρ c main_v0 : S1x64.Idx → Elt Ideal .f32) = shapeCast S1x64 (m ((c : Thread nD τ).loc main_arg2)) shapeCasts_S64_S1x64 := by
  show StableHlo.after hostOps0 (W0 m ρ c) (Proc.devRef .tc main_v0) = _
  after_results
  rfl

theorem V1_v0_at (c : Dev nD) (n : Fin 64) :
    (V1 m ρ c main_v0 : S1x64.Idx → Elt Ideal .f32) (ix2 (0 : Fin 1) n) = (m ((c : Thread nD τ).loc main_arg2) : S64.Idx → Elt Ideal .f32) (ix1 n) := by
  rw [V1_v0]
  exact shapeCast_apply _ shapeCasts_S64_S1x64 (ix2 (0 : Fin 1) n) (ix1 n) (by
    rw [Shape.rowMajor_val_one, Shape.rowMajor_val_two]; show n.val = 0 * 64 + n.val; omega)

/-! ## The result -/

/-- The result is the region's output array transposed. -/
theorem W3_result (c : Dev nD) :
    (W3 m ρ c (Proc.devRef .tc main_v2) : S8192x64.Idx → Elt Ideal .f32)
      = transpose S8192x64 [1, 0] (W2 m ρ c (Proc.devRef .tc main_v1)) transposes_S64x8192_S8192x64_1_0 := by
  show StableHlo.after hostOps1 (W2 m ρ c) (Proc.devRef .tc main_v2) = _
  after_results

/-- THE LAW, over any three arrays: the kernel's expression at (b, n) is the reference's last stage there.  The products
    commute under the sum; the scaling by 2⁻⁶ is the division by 64. -/
theorem bridge (X : (⟨S8192x4096, .f32⟩ : BufTy).Contents (Elt Ideal)) (P : (⟨S64x4096, .f32⟩ : BufTy).Contents (Elt Ideal))
    (g : (⟨S64, .f32⟩ : BufTy).Contents (Elt Ideal)) (b : Fin 8192) (n : Fin 64) :
    FloatOps.maximumf (F := Ideal) (FloatOps.subf (F := Ideal) (FloatOps.mulf (F := Ideal)
        (∑ k : Fin 4096, P (ix2 n k) * X (ix2 b k)) (FloatOps.ofBits (F := Ideal) .f32 0x3C800000#32)) (g (ix1 n)))
        (FloatOps.ofBits (F := Ideal) .f32 0x00000000#32)
      = Cert.ReferenceIdeal.Read.val_main_v6 (F := Ideal) X P g (ix2 b n) := by
  rw [Spec.scale_eq]
  rw [Cert.ReferenceIdeal.Read.val_main_v6_apply, Cert.ReferenceIdeal.Read.val_main_v5_apply, Cert.ReferenceIdeal.Read.val_main_v2_apply,
    Cert.ReferenceIdeal.Read.val_main_v0_apply, Cert.ReferenceIdeal.Read.val_main_v1_apply, Cert.ReferenceIdeal.Read.val_main_cst_apply,
    Cert.ReferenceIdeal.Read.val_main_v4_apply, Cert.ReferenceIdeal.Read.val_main_v3_apply, Cert.ReferenceIdeal.Read.val_main_call0_v0_apply,
    Cert.ReferenceIdeal.Read.val_main_call0_cst_apply]
  have el : ∀ k : Fin 4096, Cert.ReferenceIdeal.Read.lidx_main_v0 (ix2 b n) k = ix2 b k := fun k =>
    funext fun a => Fin.ext (by match a with | ⟨0, _⟩ => rfl | ⟨1, _⟩ => rfl)
  have er : ∀ k : Fin 4096, Cert.ReferenceIdeal.Read.ridx_main_v0 (ix2 b n) k = ix2 n k := fun k =>
    funext fun a => Fin.ext (by match a with | ⟨0, _⟩ => rfl | ⟨1, _⟩ => rfl)
  have eg : Cert.ReferenceIdeal.Read.idx_main_v3 (Cert.ReferenceIdeal.Read.idx_main_v4 (ix2 b n)) = ix1 n :=
    funext fun a => Fin.ext (by match a with | ⟨0, _⟩ => rfl)
  simp only [el, er, eg]
  rw [show (∑ k : Fin 4096, P (ix2 n k) * X (ix2 b k)) = ∑ k : Fin 4096, X (ix2 b k) * P (ix2 n k) from
    Finset.sum_congr rfl fun k _ => mul_comm _ _]

/-- THE BRIDGE: the kernel's result array is the reference's last stage of the same arguments. -/
theorem result_eq (c : Dev nD) :
    (W3 m ρ c (Proc.devRef .tc main_v2) : S8192x64.Idx → Elt Ideal .f32)
      = Cert.ReferenceIdeal.Read.val_main_v6 (F := Ideal) (m ((c : Thread nD τ).loc main_arg0)) (m ((c : Thread nD τ).loc main_arg1))
          (m ((c : Thread nD τ).loc main_arg2)) := by
  funext i
  obtain ⟨b, n, rfl⟩ : ∃ (b : Fin 8192) (n : Fin 64), i = ix2 b n := ⟨i 0, i 1, eq_ix2 i⟩
  rw [W3_result]
  refine (transpose_ix2_apply (a := 64) (b := 8192) (W2 m ρ c (Proc.devRef .tc main_v1)) transposes_S64x8192_S8192x64_1_0 b n).trans ?_
  rw [W2_out, final, outArr_at, V1_arg0, V1_arg1, V1_v0_at]
  exact bridge (m ((c : Thread nD τ).loc main_arg0)) (m ((c : Thread nD τ).loc main_arg1)) (m ((c : Thread nD τ).loc main_arg2)) b n

end Cert.KernelIdeal.Region

end
-- ==== Proof.lean ====
/-
  The certificate: the tiled kernel computes what the reference computes.

  The kernel reads the token matrix x : [8192, 4096] through two windows of 512 rows each per grid point, multiplies
  the prototype matrix p : [64, 4096] with each block on the matrix unit, scales by 2⁻⁶ = 1/sqrt 4096, subtracts the
  gate and clamps at zero, writing a [64, 8192] array that the host transposes.  The reference computes
  relu (x · pᵀ / 64 − gate) directly.

  Frames: each kernel program is one host reshape, one pipelined region, one host transpose; the region's run is
  followed buffer by buffer (the token matrix's share is split between its two windows and joined again at the exit),
  and every argument array is read back to its launch contents.  The reference is a host program, and its frame is
  its run with the result dropped.  The idealization rewrote nothing, so there is nothing to preserve.  For the values,
  the eight column blocks the grid writes tile the output array, each holding the scaled product less the gate, clamped;
  transposed, that is the reference's expression, because dividing by 64 is multiplying by 1/64 on every extended
  real and the products commute under the sum.
-/
import proofs.«135009_g28312424415705_cont_9to1_2284_19_alg».proof.Defs
import proofs.«135009_g28312424415705_cont_9to1_2284_19_alg».proof.Proof.Gen.Kernel
import proofs.«135009_g28312424415705_cont_9to1_2284_19_alg».proof.Proof.Gen.KernelIdeal
import proofs.«135009_g28312424415705_cont_9to1_2284_19_alg».proof.Proof.Gen.ReferenceIdeal
import proofs.«135009_g28312424415705_cont_9to1_2284_19_alg».proof.Proof.Gen.Pre_finite_inputs
import proofs.«135009_g28312424415705_cont_9to1_2284_19_alg».proof.Proof.KernelEnds
import proofs.«135009_g28312424415705_cont_9to1_2284_19_alg».proof.Proof.KernelIdealEnds
import proofs.«135009_g28312424415705_cont_9to1_2284_19_alg».proof.Proof.KernelIdealValue
import proofs.«135009_g28312424415705_cont_9to1_2284_19_alg».proof.Proof.RefRead
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Region.frame (F := Bits) m ρ

theorem frame_ki : Cert.frame_KernelIdeal := fun m ρ _ => Cert.KernelIdeal.Region.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the reference's last stage of the (agreeing) arguments in their result buffers. -/
theorem algebraic : Cert.algebraic_KernelIdeal_ReferenceIdeal := by
  intro m ρ m' ρ' _ hagree
  refine ⟨fun c => Cert.ReferenceIdeal.Read.val_main_v6 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun r h c => ⟨?_, ?_, ?_, ?_⟩) (Cert.KernelIdeal.Region.run_main (F := Ideal) m ρ)
    · exact (h c _ (Cert.KernelIdeal.Region.mem_uc Cert.KernelIdeal.main_v2 (by decide))).trans (Cert.KernelIdeal.Region.result_eq m ρ c)
    · exact (h c _ (Cert.KernelIdeal.Region.mem_uc Cert.KernelIdeal.main_arg0 (by decide))).trans (Cert.KernelIdeal.Region.W3_main_arg0 m ρ c)
    · exact (h c _ (Cert.KernelIdeal.Region.mem_uc Cert.KernelIdeal.main_arg1 (by decide))).trans (Cert.KernelIdeal.Region.W3_main_arg1 m ρ c)
    · exact (h c _ (Cert.KernelIdeal.Region.mem_uc Cert.KernelIdeal.main_arg2 (by decide))).trans (Cert.KernelIdeal.Region.W3_main_arg2 m ρ c)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v6_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
